-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, as values.

  The body keeps a running block `acc` in a scratch buffer. At the first column block it stores zeros and then
  `acc + x·wᵀ` (so `0 + x·wᵀ`); at every later one `acc + x·wᵀ` over what the point before left; at the last one it
  also stores `acc + bias` to the output block, reading `acc` back after its own update. Each store covers its whole
  buffer, so what a buffer holds afterwards is the last store's value.
-/
import proofs.«101767_j21251498180723_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem hz1 : (![0] : Fin 1 → Nat) = fun _ => 0 := funext fun a => by fin_cases a <;> rfl

/-- The first column block: the scratch is zeroed, read back, and ends at `0 + x·wᵀ`. -/
theorem scratch_first (c : Dev nD) (i : grid0.Coords) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x512 .f32) (x2 : Vec F S1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz]
  simp only [View.readAt_eq_ld, h3.read_unread, h4.read_unread, h5.read_unread, h7.read_unread, View.readCov_unit_zero (S := S1024x1024) _ hz, View.ld_unit_zero (S := S1024x1024) hz, View.ld_unit_zero (S := S1024x512) hz, View.ld_unit_zero (S := S1024) hz1]

/-- A middle column block: the scratch ends at `acc + x·wᵀ` over what it held. -/
theorem scratch_mid (c : Dev nD) (i : grid0.Coords) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x512 .f32) (x2 : Vec F S1024 .f32) (acc : Vec F S1024x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h5.read_unread, h7.read_unread, View.readCov_unit_zero (S := S1024x1024) _ hz, View.ld_unit_zero (S := S1024x1024) hz, View.ld_unit_zero (S := S1024x512) hz, View.ld_unit_zero (S := S1024) hz1]

/-- The last column block updates the scratch the same way, -/
theorem scratch_last (c : Dev nD) (i : grid0.Coords) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x512 .f32) (x2 : Vec F S1024 .f32) (acc : Vec F S1024x1024 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread, View.readCov_unit_zero (S := S1024x1024) _ hz, View.ld_unit_zero (S := S1024x1024) hz, View.ld_unit_zero (S := S1024x512) hz, View.ld_unit_zero (S := S1024) hz1]

/-- and stores the updated scratch plus the bias row to the output block. -/
theorem out_last (c : Dev nD) (i : grid0.Coords) (a3 : Memref sig .tc .vmem S1024x512 .f32) (h3 : a3.IsWhole) (a4 : Memref sig .tc .vmem S1024x512 .f32) (h4 : a4.IsWhole) (a5 : Memref sig .tc .vmem S1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x512 .f32) (x2 : Vec F S1024 .f32) (acc : Vec F S1024x1024 .f32) :
    out0_C_3 c i a3 h3 a4 h4 a5 h5 a6 h6 a7 h7 hc0 hc1 x0 x1 x2 acc = k0_pay3 (k0_pay2 x0 x1 acc) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread, View.readCov_unit_zero (S := S1024x1024) _ hz, View.ld_unit_zero (S := S1024x1024) hz, View.ld_unit_zero (S := S1024x512) hz, View.ld_unit_zero (S := S1024) hz1]

end Cert.KernelIdeal.Pieces

end
-- ==== Proof.PayloadAt.lean ====
/-
  The body's three stored values, entry by entry, on the extended reals.

  The zero block is `0` everywhere. The update `acc + x·wᵀ` has, at row `r` and column `s`, the entry
  `acc[r, s] + ∑ k, x[r, k] · w[s, k]`: the product contracts the columns of both operands, its accumulator is zero,
  and the narrowing of the operands to bf16 is the identity on exact values. The output `acc + bias` has the entry
  `acc[r, s] + bias[s]`: the bias row is viewed as one row and repeated down the block.
-/
import proofs.«101767_j21251498180723_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.PayloadAt

open Cert.KernelIdeal Cert.KernelIdeal.Gen

/-- The left operand's row is the result's row, -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- its column the contracted coordinate; -/
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

/-- the right operand's row is the result's column, -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- its column the contracted coordinate. -/
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into a zero accumulator, at an entry: `∑ k, A[r, k] · B[s, k]`. -/
theorem blockProduct_at (A B : FVec Ideal S1024x512 .bf16) (r s : Fin 1024) :
    matmul dot_S1024x512_S1024x512_S1024x1024_1_1_0_0_n_n none A B (constant (F := Ideal) S1024x1024 .f32 0x00000000#32) (ix2 r s)
      = ∑ k : Fin 512, A (ix2 r k) * B (ix2 s k) := by
  show FloatOps.matmul dot_S1024x512_S1024x512_S1024x1024_1_1_0_0_n_n none A B (constant (F := Ideal) S1024x1024 .f32 0x00000000#32) (ix2 r s) = _
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r s) ((contrEquiv1 dot_S1024x512_S1024x512_S1024x1024_1_1_0_0_n_n 512 rfl rfl).symm k) = ix2 r k := funext fun a => Fin.ext (by
    match a with
    | ⟨0, _⟩ => exact lhs_row _ _
    | ⟨1, _⟩ => exact (lhs_col _ _).trans hk)
  have er : dot_S1024x512_S1024x512_S1024x1024_1_1_0_0_n_n.rhsIdx (ix2 r s) ((contrEquiv1 dot_S1024x512_S1024x512_S1024x1024_1_1_0_0_n_n 512 rfl rfl).symm k) = ix2 s k := funext fun a => Fin.ext (by
    match a with
    | ⟨0, _⟩ => exact rhs_row _ _
    | ⟨1, _⟩ => exact (rhs_col _ _).trans hk)
  rw [el, er]

/-- The reset stores zeros. -/
theorem zero_at (r s : Fin 1024) : k0_pay1 (F := Ideal) (ix2 r s) = 0 := by
  unfold k0_pay1
  rw [shapeCast_self]
  exact Ideal.ofBits_zero_f32

/-- The update at an entry. -/
theorem update_at (x w : Vec Ideal S1024x512 .f32) (acc : Vec Ideal S1024x1024 .f32) (r s : Fin 1024) :
    k0_pay2 x w acc (ix2 r s) = acc (ix2 r s) + ∑ k : Fin 512, x (ix2 r k) * w (ix2 s k) := by
  unfold k0_pay2
  rw [shapeCast_self]
  show acc (ix2 r s) + matmul dot_S1024x512_S1024x512_S1024x1024_1_1_0_0_n_n none (truncf (F := Ideal) .bf16 x bitsLt_bf16_f32) (truncf (F := Ideal) .bf16 w bitsLt_bf16_f32) (constant (F := Ideal) S1024x1024 .f32 0x00000000#32) (ix2 r s) = _
  rw [blockProduct_at]
  rfl

/-- The output at an entry. -/
theorem biased_at (acc : Vec Ideal S1024x1024 .f32) (b : Vec Ideal S1024 .f32) (r s : Fin 1024) :
    k0_pay3 acc b (ix2 r s) = acc (ix2 r s) + b (ix1 s) := by
  unfold k0_pay3
  show acc (ix2 r s) + broadcastTo S1024x1024 (shapeCast S1x1024 b shapeCasts_S1024_S1x1024) broadcasts_S1x1024_S1024x1024 (ix2 r s) = _
  rw [broadcastTo_1b_ab_apply, shapeCast_a_1a_apply]

end Cert.KernelIdeal.PayloadAt

end
-- ==== Proof.BlockedDot.lean ====
/-
  A dot product taken in consecutive column blocks.

  The sum of a sequence over its first `n + b` terms is the sum over the first `n` plus the sum of the next `b`;
  so a dot product accumulated block of columns by block of columns, starting from zero, is the whole dot
  product. On the extended reals only the commutative-monoid structure of `+` is used: no finiteness is needed.
-/
import Idealize.ShloMosaic.PureOps.Ideal.Laws
import Idealize.ShloMosaic.Lib.ValueIdx

noncomputable section

open scoped BigOperators

namespace Cert.BlockedDot

open Idealize.ShloMosaic Idealize.ShloMosaic.ValueIdx

/-- A finite sequence continued by zeros. -/
def ext0 {n : ℕ} (g : Fin n → EReal) : ℕ → EReal := fun c => if h : c < n then g ⟨c, h⟩ else 0

theorem ext0_val {n : ℕ} (g : Fin n → EReal) (c : Fin n) : ext0 g c.val = g c := by
  unfold ext0; rw [dif_pos c.isLt]

theorem ext0_of_lt {n : ℕ} (g : Fin n → EReal) (c : ℕ) (h : c < n) : ext0 g c = g ⟨c, h⟩ := by
  unfold ext0; rw [dif_pos h]

/-- The sum of the first `n` terms. -/
def partialSum (f : ℕ → EReal) (n : ℕ) : EReal := ∑ c ∈ Finset.range n, f c

theorem partialSum_zero (f : ℕ → EReal) : partialSum f 0 = 0 := Finset.sum_range_zero _

/-- The next block of `b` terms is added on. -/
theorem partialSum_add (f : ℕ → EReal) (n b : ℕ) :
    partialSum f (n + b) = partialSum f n + ∑ c : Fin b, f (n + c.val) := by
  unfold partialSum
  rw [Finset.sum_range_add, Fin.sum_univ_eq_sum_range (fun c => f (n + c)) b]

/-- The whole sum over `Fin n` is the sum of the first `n` terms of the continued sequence. -/
theorem sum_eq_partialSum {n : ℕ} (g : Fin n → EReal) : ∑ c : Fin n, g c = partialSum (ext0 g) n := by
  unfold partialSum
  rw [← Fin.sum_univ_eq_sum_range (ext0 g) n]
  exact Finset.sum_congr rfl fun c _ => (ext0_val g c).symm

/-- The dense layer on the extended reals: `out[i, j] = (∑ k, X[i, k] · W[j, k]) + b[j]`. -/
def linear (X : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ k : Fin 4096, X (ix2 (i 0) k) * W (ix2 (i 1) k)) + b (ix1 (i 1))

end Cert.BlockedDot

end
-- ==== Proof.KernelValue.lean ====
/-
  What the kernel's result array holds: the dense layer of its arguments.

  The grid is 8 row blocks × 4 column blocks × 8 blocks of the contracted axis, the last running fastest; point
  `t` works on row block `t / 32`, column block `t / 8 % 4` and contracted block `t % 8`. After point `t` the
  scratch holds, at `(r, s)`, the dot product of row `1024·(t/32) + r` of `x` with row `1024·(t/8 % 4) + s` of
  `W` over the first `512·(t % 8 + 1)` columns: the first contracted block starts from zero, each later one
  adds its 512 columns (induction on the point). At the last contracted block all 4096 columns are in, the bias
  is added, and the block is written back; those 32 blocks tile the result.
-/
import proofs.«101767_j21251498180723_1_alg».proof.Proof.Gen.KernelIdeal.Value
import proofs.«101767_j21251498180723_1_alg».proof.Proof.Pieces
import proofs.«101767_j21251498180723_1_alg».proof.Proof.PayloadAt
import proofs.«101767_j21251498180723_1_alg».proof.Proof.BlockedDot
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen Cert.BlockedDot

variable (m : (ℓ : Loc nD τ sig) → Buf (Elt Ideal) ℓ) (ρ : Dev nD → PrngReg)

/-- The three arguments, at their literal types. -/
abbrev xArr (c : Dev nD) : Vec Ideal S8192x4096 .f32 := m ((c : Thread nD τ).loc main_arg0)
abbrev wArr (c : Dev nD) : Vec Ideal S4096x4096 .f32 := m ((c : Thread nD τ).loc main_arg1)
abbrev bArr (c : Dev nD) : Vec Ideal S4096 .f32 := m ((c : Thread nD τ).loc main_arg2)

/-- The three input blocks at a point, at their literal types. -/
abbrev xBlk (c : Dev nD) (t : Fin cfg0.N) : Vec Ideal S1024x512 .f32 := iblk m c 0 t
abbrev wBlk (c : Dev nD) (t : Fin cfg0.N) : Vec Ideal S1024x512 .f32 := iblk m c 1 t
abbrev bBlk (c : Dev nD) (t : Fin cfg0.N) : Vec Ideal S1024 .f32 := iblk m c 2 t

/-! ## Which blocks a point works on -/

/-- The index maps in closed form, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 1) = t.val / 8 % 4
    ∧ win0_3.index t (0 : Fin 2) = t.val / 32 ∧ win0_3.index t (1 : Fin 2) = t.val / 8 % 4 :=
  (by decide +kernel : ∀ t : Fin grid0.N, _)

/-- `x`'s block at point `t` is rows `1024·(t/32) …`, columns `512·(t%8) …` of `x`. -/
theorem xBlk_at (c : Dev nD) (t : Fin cfg0.N) (r : Fin 1024) (k : Fin 512) (a : Fin 8192) (b : Fin 4096)
    (ha : a.val = 1024 * (t.val / 32) + r.val) (hb : b.val = 512 * (t.val % 8) + k.val) :
    xBlk m c t (ix2 r k) = xArr m c (ix2 a b) := by
  obtain ⟨e0, e1, -⟩ := idx_facts t
  unfold xBlk iblk
  rw [View.read_apply]
  show m ((c : Thread nD τ).loc main_arg0) _ = m ((c : Thread nD τ).loc main_arg0) _
  congr 1
  funext ax
  apply Fin.ext
  match ax with
  | ⟨0, _⟩ => show win0_0.index t 0 * 1024 + 1 * r.val = a.val; rw [e0, ha]; omega
  | ⟨1, _⟩ => show win0_0.index t 1 * 512 + 1 * k.val = b.val; rw [e1, hb]; omega

/-- `W`'s block at point `t` is rows `1024·(t/8 % 4) …`, columns `512·(t%8) …` of `W`. -/
theorem wBlk_at (c : Dev nD) (t : Fin cfg0.N) (s : Fin 1024) (k : Fin 512) (a : Fin 4096) (b : Fin 4096)
    (ha : a.val = 1024 * (t.val / 8 % 4) + s.val) (hb : b.val = 512 * (t.val % 8) + k.val) :
    wBlk m c t (ix2 s k) = wArr m c (ix2 a b) := by
  obtain ⟨-, -, e0, e1, -⟩ := idx_facts t
  unfold wBlk iblk
  rw [View.read_apply]
  show m ((c : Thread nD τ).loc main_arg1) _ = m ((c : Thread nD τ).loc main_arg1) _
  congr 1
  funext ax
  apply Fin.ext
  match ax with
  | ⟨0, _⟩ => show win0_1.index t 0 * 1024 + 1 * s.val = a.val; rw [e0, ha]; omega
  | ⟨1, _⟩ => show win0_1.index t 1 * 512 + 1 * k.val = b.val; rw [e1, hb]; omega

/-- The bias block at point `t` is entries `1024·(t/8 % 4) …` of the bias. -/
theorem bBlk_at (c : Dev nD) (t : Fin cfg0.N) (s : Fin 1024) (a : Fin 4096)
    (ha : a.val = 1024 * (t.val / 8 % 4) + s.val) :
    bBlk m c t (ix1 s) = bArr m c (ix1 a) := by
  obtain ⟨-, -, -, -, e0, -⟩ := idx_facts t
  unfold bBlk iblk
  rw [View.read_apply]
  show m ((c : Thread nD τ).loc main_arg2) _ = m ((c : Thread nD τ).loc main_arg2) _
  congr 1
  funext ax
  apply Fin.ext
  match ax with
  | ⟨0, _⟩ => show win0_2.index t 0 * 1024 + 1 * s.val = a.val; rw [e0, ha]; omega

/-! ## The products of one entry, and one block of them -/

/-- The products `x[a, k] · W[b, k]`, `k = 0, 1, …`, of entry `(a, b)`, continued by zeros. -/
def prods (c : Dev nD) (a b : ℕ) : ℕ → EReal :=
  if h : a < 8192 ∧ b < 4096 then ext0 (fun k : Fin 4096 => xArr m c (ix2 ⟨a, h.1⟩ k) * wArr m c (ix2 ⟨b, h.2⟩ k))
  else fun _ => 0

theorem prods_of_lt (c : Dev nD) (a b k : ℕ) (ha : a < 8192) (hb : b < 4096) (hk : k < 4096) :
    prods m c a b k = xArr m c (ix2 ⟨a, ha⟩ ⟨k, hk⟩) * wArr m c (ix2 ⟨b, hb⟩ ⟨k, hk⟩) := by
  unfold prods
  rw [dif_pos ⟨ha, hb⟩, ext0_of_lt _ k hk]

/-- The block product of point `t` at `(r, s)` is the next 512 products of the entry it belongs to. -/
theorem step_sum (c : Dev nD) (t : Fin cfg0.N) (r s : Fin 1024) :
    ∑ k : Fin 512, xBlk m c t (ix2 r k) * wBlk m c t (ix2 s k)
      = ∑ k : Fin 512, prods m c (1024 * (t.val / 32) + r.val) (1024 * (t.val / 8 % 4) + s.val) (512 * (t.val % 8) + k.val) := by
  have hN : t.val < 256 := lt_of_lt_of_eq t.isLt (show cfg0.N = 256 from N_0)
  refine Finset.sum_congr rfl fun k _ => ?_
  have ha : 1024 * (t.val / 32) + r.val < 8192 := by omega
  have hb : 1024 * (t.val / 8 % 4) + s.val < 4096 := by omega
  have hk : 512 * (t.val % 8) + k.val < 4096 := by omega
  rw [prods_of_lt m c _ _ _ ha hb hk, xBlk_at m c t r k ⟨_, ha⟩ ⟨_, hk⟩ rfl rfl, wBlk_at m c t s k ⟨_, hb⟩ ⟨_, hk⟩ rfl rfl]

/-! ## The scratch after each point -/

/-- The partial dot products the scratch holds after point `n`. -/
def accSpec (c : Dev nD) (n : ℕ) : Vec Ideal S1024x1024 .f32 := fun j =>
  partialSum (prods m c (1024 * (n / 32) + (j 0).val) (1024 * (n / 8 % 4) + (j 1).val)) (512 * (n % 8) + 512)

/-- At a first contracted block they are that block's products alone. -/
theorem accSpec_first (c : Dev nD) (n : ℕ) (hn : n % 8 = 0) (r s : Fin 1024) :
    accSpec m c n (ix2 r s)
      = ∑ k : Fin 512, prods m c (1024 * (n / 32) + r.val) (1024 * (n / 8 % 4) + s.val) (512 * (n % 8) + k.val) := by
  show partialSum (prods m c (1024 * (n / 32) + r.val) (1024 * (n / 8 % 4) + s.val)) (512 * (n % 8) + 512) = _
  rw [partialSum_add, hn, Nat.mul_zero, partialSum_zero, zero_add]

/-- At a later one, the point before's plus that block's products. -/
theorem accSpec_step (c : Dev nD) (n : ℕ) (hn : ¬(n + 1) % 8 = 0) (r s : Fin 1024) :
    accSpec m c (n + 1) (ix2 r s) = accSpec m c n (ix2 r s)
      + ∑ k : Fin 512, prods m c (1024 * ((n + 1) / 32) + r.val) (1024 * ((n + 1) / 8 % 4) + s.val) (512 * ((n + 1) % 8) + k.val) := by
  have e1 : n / 32 = (n + 1) / 32 := by omega
  have e2 : n / 8 % 4 = (n + 1) / 8 % 4 := by omega
  have e3 : 512 * (n % 8) + 512 = 512 * ((n + 1) % 8) := by omega
  show partialSum (prods m c (1024 * ((n + 1) / 32) + r.val) (1024 * ((n + 1) / 8 % 4) + s.val)) (512 * ((n + 1) % 8) + 512)
    = partialSum (prods m c (1024 * (n / 32) + r.val) (1024 * (n / 8 % 4) + s.val)) (512 * (n % 8) + 512) + _
  rw [e1, e2, e3, partialSum_add]

/-- What the first contracted block leaves in the scratch, -/
theorem scratch_A (c : Dev nD) (t : Fin cfg0.N) (h0 : t.val % 8 = 0) (h1 : ¬t.val % 8 = 7) :
    (outsAt0 m c t.val t.isLt).2 = k0_pay2 (xBlk m c t) (wBlk m c t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- a middle one, -/
theorem scratch_B (c : Dev nD) (t : Fin cfg0.N) (h0 : ¬t.val % 8 = 0) (h1 : ¬t.val % 8 = 7) :
    (outsAt0 m c t.val t.isLt).2 = k0_pay2 (xBlk m c t) (wBlk m c t) (outsAt0 m c (t.val - 1) (Nat.lt_of_le_of_lt (Nat.sub_le _ _) t.isLt)).2 := by
  rw [outsAt0_B m c t h0 h1]
  dsimp only
  exact Pieces.scratch_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- the last one, -/
theorem scratch_C (c : Dev nD) (t : Fin cfg0.N) (h0 : ¬t.val % 8 = 0) (h1 : t.val % 8 = 7) :
    (outsAt0 m c t.val t.isLt).2 = k0_pay2 (xBlk m c t) (wBlk m c t) (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and what the last one stores to the output block: its updated scratch plus the bias. -/
theorem out_C (c : Dev nD) (t : Fin cfg0.N) (h0 : ¬t.val % 8 = 0) (h1 : t.val % 8 = 7) :
    (outsAt0 m c t.val t.isLt).1 = k0_pay3 (outsAt0 m c t.val t.isLt).2 (bBlk m c t) := by
  rw [scratch_C m c t h0 h1, outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- THE SCRATCH after point `n` holds the partial dot products: by induction on the point. -/
theorem scratch_eq (c : Dev nD) : ∀ (n : ℕ) (h : n < cfg0.N), (outsAt0 m c n h).2 = accSpec m c n := by
  intro n
  induction n with
  | zero =>
    intro h
    have hA := scratch_A m c ⟨0, h⟩ rfl (by show ¬0 % 8 = 7; omega)
    refine hA.trans ?_
    funext j
    obtain ⟨r, s, rfl⟩ : ∃ (r s : Fin 1024), j = ix2 r s := ⟨j 0, j 1, eq_ix2 j⟩
    refine (PayloadAt.update_at (xBlk m c ⟨0, h⟩) (wBlk m c ⟨0, h⟩) (k0_pay1 (F := Ideal)) r s).trans ?_
    rw [PayloadAt.zero_at, zero_add, step_sum m c ⟨0, h⟩ r s]
    exact (accSpec_first m c 0 rfl r s).symm
  | succ n ih =>
    intro h
    have hN : n + 1 < 256 := lt_of_lt_of_eq h (show cfg0.N = 256 from N_0)
    funext j
    obtain ⟨r, s, rfl⟩ : ∃ (r s : Fin 1024), j = ix2 r s := ⟨j 0, j 1, eq_ix2 j⟩
    by_cases h0 : (n + 1) % 8 = 0
    · have hA := scratch_A m c ⟨n + 1, h⟩ h0 (by show ¬(n + 1) % 8 = 7; omega)
      rw [hA]
      refine (PayloadAt.update_at (xBlk m c ⟨n + 1, h⟩) (wBlk m c ⟨n + 1, h⟩) (k0_pay1 (F := Ideal)) r s).trans ?_
      rw [PayloadAt.zero_at, zero_add, step_sum m c ⟨n + 1, h⟩ r s]
      exact (accSpec_first m c (n + 1) h0 r s).symm
    · have hprev : (outsAt0 m c ((⟨n + 1, h⟩ : Fin cfg0.N).val - 1) (Nat.lt_of_le_of_lt (Nat.sub_le _ _) (⟨n + 1, h⟩ : Fin cfg0.N).isLt)).2 = accSpec m c n :=
        ih (Nat.lt_of_succ_lt h)
      have hS : (outsAt0 m c (n + 1) h).2 = k0_pay2 (xBlk m c ⟨n + 1, h⟩) (wBlk m c ⟨n + 1, h⟩) (accSpec m c n) := by
        by_cases h1 : (n + 1) % 8 = 7
        · exact (scratch_C m c ⟨n + 1, h⟩ h0 h1).trans (by rw [hprev])
        · exact (scratch_B m c ⟨n + 1, h⟩ h0 h1).trans (by rw [hprev])
      rw [hS]
      refine (PayloadAt.update_at (xBlk m c ⟨n + 1, h⟩) (wBlk m c ⟨n + 1, h⟩) (accSpec m c n) r s).trans ?_
      rw [step_sum m c ⟨n + 1, h⟩ r s]
      exact (accSpec_step m c n h0 r s).symm

/-! ## The result array -/

/-- The dense layer of the three arguments. -/
abbrev result (c : Dev nD) : Vec Ideal S8192x4096 .f32 := linear (xArr m c) (wArr m c) (bArr m c)

/-- All 4096 products of an entry sum to its dot product. -/
theorem full_sum (c : Dev nD) (a : Fin 8192) (b : Fin 4096) :
    partialSum (prods m c a.val b.val) 4096 = ∑ k : Fin 4096, xArr m c (ix2 a k) * wArr m c (ix2 b k) := by
  unfold prods
  rw [dif_pos ⟨a.isLt, b.isLt⟩]
  exact (sum_eq_partialSum _).symm

/-- WHAT A LAST CONTRACTED BLOCK WRITES BACK is its block of the dense layer. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  have hN : t.val < 256 := lt_of_lt_of_eq t.isLt (show cfg0.N = 256 from N_0)
  obtain ⟨-, -, -, -, -, e0, e1⟩ := idx_facts t
  rw [Value.flushed3 m c t]
  funext j
  obtain ⟨r, s, rfl⟩ : ∃ (r s : Fin 1024), j = ix2 r s := ⟨j 0, j 1, eq_ix2 j⟩
  show (outsAt0 m c t.val t.isLt).1 (ix2 r s) = result m c (((cfg0.win 3).blk t).view.emb (ix2 r s))
  rw [out_C m c t h0 h1]
  refine (PayloadAt.biased_at _ (bBlk m c t) r s).trans ?_
  rw [scratch_eq m c t.val t.isLt]
  have ha : 1024 * (t.val / 32) + r.val < 8192 := by omega
  have hb : 1024 * (t.val / 8 % 4) + s.val < 4096 := by omega
  have hemb : ((cfg0.win 3).blk t).view.emb (ix2 r s) = ix2 (⟨_, ha⟩ : Fin 8192) (⟨_, hb⟩ : Fin 4096) := by
    funext ax
    apply Fin.ext
    match ax with
    | ⟨0, _⟩ => show win0_3.index t 0 * 1024 + 1 * r.val = 1024 * (t.val / 32) + r.val; rw [e0]; omega
    | ⟨1, _⟩ => show win0_3.index t 1 * 1024 + 1 * s.val = 1024 * (t.val / 8 % 4) + s.val; rw [e1]; omega
  rw [hemb, bBlk_at m c t s ⟨_, hb⟩ rfl]
  show partialSum (prods m c (1024 * (t.val / 32) + r.val) (1024 * (t.val / 8 % 4) + s.val)) (512 * (t.val % 8) + 512) + _ = _
  rw [h1, show 512 * 7 + 512 = 4096 from rfl, full_sum m c ⟨_, ha⟩ ⟨_, hb⟩]
  rfl

/-- An index is in point `t`'s output block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- The written-back blocks tile the result: entry `(a, b)` is in the block of the point with row block
    `a / 1024`, column block `b / 1024` and the last contracted block. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  obtain ⟨tv, htv⟩ : ∃ tv : ℕ, tv = 32 * ((i 0).val / 1024) + 8 * ((i 1).val / 1024) + 7 := ⟨_, rfl⟩
  have ht : tv < cfg0.N := by rw [hN]; omega
  refine ⟨⟨tv, ht⟩, (flush0_3 ⟨tv, ht⟩).mpr (by show tv % 8 = 7; omega), ?_⟩
  obtain ⟨-, -, -, -, -, e0, e1⟩ := idx_facts ⟨tv, ht⟩
  have e0' : win0_3.index ⟨tv, ht⟩ (0 : Fin 2) = tv / 32 := e0
  have e1' : win0_3.index ⟨tv, ht⟩ (1 : Fin 2) = tv / 8 % 4 := e1
  rw [mem_blk]
  intro a
  match a with
  | ⟨0, _⟩ => show win0_3.index ⟨tv, ht⟩ (0 : Fin 2) * 1024 ≤ (i 0).val ∧ (i 0).val < win0_3.index ⟨tv, ht⟩ (0 : Fin 2) * 1024 + 1024; rw [e0']; omega
  | ⟨1, _⟩ => show win0_3.index ⟨tv, ht⟩ (1 : Fin 2) * 1024 ≤ (i 1).val ∧ (i 1).val < win0_3.index ⟨tv, ht⟩ (1 : Fin 2) * 1024 + 1024; rw [e1']; omega

/-- So the result array ends holding the dense layer. -/
theorem final (c : Dev nD) : (dats m 0 c).arrAt 3 cfg0.N = result m c :=
  (dats m 0 c).arrAt_eq_of_cover 3 (result m c) (flushed_eq m c) cover

/-- The run, read: the result at the dense layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Linear

end
-- ==== Proof.RefLinear.lean ====
/-
  The reference computes the dense layer.

  Its four operations are a product contracting the columns of `x` against the columns of `W`, the bias viewed
  as one row, that row repeated down all rows, and their sum; read at an index `(i, j)` that is
  `(∑ k, x[i, k] · W[j, k]) + b[j]`.
-/
import proofs.«101767_j21251498180723_1_alg».proof.Proof.Gen.ReferenceIdeal.Read
import proofs.«101767_j21251498180723_1_alg».proof.Proof.BlockedDot

noncomputable section

open scoped BigOperators
open Idealize.ShloMosaic Idealize.ShloMosaic.ValueIdx

namespace Cert.ReferenceIdeal.RefLinear

open Cert.ReferenceIdeal Cert.ReferenceIdeal.Gen Cert.ReferenceIdeal.Read Cert.BlockedDot

/-- The reference's last stage is the dense layer of its three arguments. -/
theorem reference_is_linear (x0 : Vec Ideal S8192x4096 .f32) (x1 : Vec Ideal S4096x4096 .f32) (x2 : Vec Ideal S4096 .f32) :
    val_main_v3 (F := Ideal) x0 x1 x2 = linear x0 x1 x2 := by
  funext i
  have el : ∀ k : Fin 4096, lidx_main_v0 i k = ix2 (i 0) k := fun k =>
    funext fun a => Fin.ext (by match a with | ⟨0, _⟩ => rfl | ⟨1, _⟩ => rfl)
  have er : ∀ k : Fin 4096, ridx_main_v0 i k = ix2 (i 1) k := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply, eb]
  simp only [el, er]
  rfl

end Cert.ReferenceIdeal.RefLinear

end
-- ==== Proof.lean ====
/-
  The dense layer `out = x · Wᵀ + b` (x : 8192×4096, W : 4096×4096, b : 4096), computed by a kernel that walks an
  8 × 4 × 8 grid of 1024×1024 output blocks and 512-column slices of the contracted axis, against the reference's
  one whole product plus the broadcast bias.

  On the extended reals both are `(∑ k, x[i, k] · W[j, k]) + b[j]`: the kernel's running block starts from zero at
  the first slice and adds the 512 products of each slice in turn, so after the last slice it holds the sum over
  all 4096 columns (a sum taken in consecutive blocks is the whole sum: only associativity of `+` is used, so the
  inputs' finiteness is not needed); the narrowing of the operands to bf16 before the product is the identity on
  exact values. The ideal pass rewrote nothing, so the preservation claim is trivial. The three frames are the
  generated frame runs of the two kernels and the reference's generated run with its result dropped.
-/
import proofs.«101767_j21251498180723_1_alg».proof.Defs
import proofs.«101767_j21251498180723_1_alg».proof.Proof.Gen.Kernel
import proofs.«101767_j21251498180723_1_alg».proof.Proof.Gen.Kernel.Skeleton
import proofs.«101767_j21251498180723_1_alg».proof.Proof.Gen.Kernel.Launch
import proofs.«101767_j21251498180723_1_alg».proof.Proof.Gen.Kernel.Points
import proofs.«101767_j21251498180723_1_alg».proof.Proof.Gen.Kernel.Frame
import proofs.«101767_j21251498180723_1_alg».proof.Proof.Gen.KernelIdeal
import proofs.«101767_j21251498180723_1_alg».proof.Proof.Gen.KernelIdeal.Skeleton
import proofs.«101767_j21251498180723_1_alg».proof.Proof.Gen.KernelIdeal.Launch
import proofs.«101767_j21251498180723_1_alg».proof.Proof.Gen.KernelIdeal.Points
import proofs.«101767_j21251498180723_1_alg».proof.Proof.Gen.KernelIdeal.Frame
import proofs.«101767_j21251498180723_1_alg».proof.Proof.Gen.ReferenceIdeal
import proofs.«101767_j21251498180723_1_alg».proof.Proof.Gen.Pre_finite_inputs
import proofs.«101767_j21251498180723_1_alg».proof.Proof.Gen.KernelIdeal.Value
import proofs.«101767_j21251498180723_1_alg».proof.Proof.Gen.ReferenceIdeal.Run
import proofs.«101767_j21251498180723_1_alg».proof.Proof.Gen.ReferenceIdeal.Read
import proofs.«101767_j21251498180723_1_alg».proof.Proof.KernelValue
import proofs.«101767_j21251498180723_1_alg».proof.Proof.RefLinear
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the dense layer of arguments that agree. -/
theorem algebraic : Cert.algebraic_KernelIdeal_ReferenceIdeal := by
  intro m ρ m' ρ' _ hagree
  refine ⟨fun c => Cert.KernelIdeal.Linear.result m c, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefLinear.reference_is_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
